-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S14336x4096 : Shape := ⟨2, ![14336, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S14336x4096 : S_.BroadcastsInDim S14336x4096 (![] : Fin 0 → Fin S14336x4096.rank)
  reducesTo_S14336x4096_S_d0_1 : S14336x4096.ReducesTo [0, 1] S_

variable [Facts]

def fn_part1 {F : FTy → Type} [FloatOps F] (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  main_v18

def fn {F : FTy → Type} [FloatOps F] (main_arg0 : FVec F S4096x4096 .f32) (main_arg1 : FVec F S14336x4096 .f32) (main_arg2 : FVec F S14336x4096 .f32) (main_arg3 : FVec F S14336x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_v13 main_v16
-- ==== Kernel.lean ====
abbrev S4096x4096 : Shape := ⟨2, ![4096, 4096]⟩
abbrev S14336x4096 : Shape := ⟨2, ![14336, 4096]⟩
abbrev S256x4096 : Shape := ⟨2, ![256, 4096]⟩
abbrev S256x256 : Shape := ⟨2, ![256, 256]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S14336x4096, .f32⟩
  | .hbm, ⟨2, _⟩ => ⟨S14336x4096, .f32⟩
  | .hbm, ⟨3, _⟩ => ⟨S14336x4096, .f32⟩
  | .hbm, ⟨4, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 56], ![false, false]⟩

def k0_cond2 (i : grid0.Coords) : BitVec 1 :=
  let arg1 : BitVec 32 := BitVec.ofNat 32 (i 1).val
  let c55_i32 : BitVec 32 := 55#32
  let v23 : BitVec 1 := Scalar.cmpi .eq arg1 c55_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  dot_S256x4096_S256x4096_S256x256_1_1_0_0_n_n_wf : DotDims.WF S256x4096 S256x4096 S256x256 [1] [1] [0] [0] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .f32 = 32 ∨ (Rect.block (s := S14336x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S14336x4096.size a
  hwx0_2 : ∀ i : grid0.Coords, EltTy.bits .f32 = 32 ∨ (Rect.block (s := S14336x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S14336x4096.size a
  hwx0_3 : ∀ i : grid0.Coords, EltTy.bits .f32 = 32 ∨ (Rect.block (s := S14336x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S14336x4096 : Shape := ⟨2, ![14336, 4096]⟩
abbrev S4096x14336 : Shape := ⟨2, ![4096, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S14336x4096, .f32⟩
  | .hbm, ⟨2, _⟩ => ⟨S14336x4096, .f32⟩
  | .hbm, ⟨3, _⟩ => ⟨S14336x4096, .f32⟩
  | .hbm, ⟨4, _⟩ => ⟨S4096x14336, .f32⟩
  | .hbm, ⟨5, _⟩ => ⟨S4096x14336, .f32⟩
  | .hbm, ⟨6, _⟩ => ⟨S4096x14336, .f32⟩
  | .hbm, ⟨7, _⟩ => ⟨S4096x14336, .f32⟩
  | .hbm, ⟨8, _⟩ => ⟨S_, .f32⟩
  | .hbm, ⟨9, _⟩ => ⟨S4096x14336, .f32⟩
  | .hbm, ⟨10, _⟩ => ⟨S4096x14336, .f32⟩
  | .hbm, ⟨11, _⟩ => ⟨S_, .f32⟩
  | .hbm, ⟨12, _⟩ => ⟨S4096x14336, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4096x14336 : S_.BroadcastsInDim S4096x14336 (![] : Fin 0 → Fin S4096x14336.rank)
  dot_S4096x4096_S14336x4096_S4096x14336_1_1_0_0_n_n_wf : DotDims.WF S4096x4096 S14336x4096 S4096x14336 [1] [1] [0] [0] [] []
  dot_S4096x14336_S14336x4096_S4096x4096_1_0_0_1_n_n_wf : DotDims.WF S4096x14336 S14336x4096 S4096x4096 [1] [0] [0] [1] [] []

variable [Facts₀]

def dot_S4096x4096_S14336x4096_S4096x14336_1_1_0_0_n_n : DotDims S4096x4096 S14336x4096 S4096x14336 where
  lhsContracting := [1]
  rhsContracting := [1]
  lhsNonContracting := [0]
  rhsNonContracting := [0]
  lhsBatch := []
  rhsBatch := []
  wf := dot_S4096x4096_S14336x4096_S4096x14336_1_1_0_0_n_n_wf
def dot_S4096x14336_S14336x4096_S4096x4096_1_0_0_1_n_n : DotDims S4096x14336 S14336x4096 S4096x4096 where
  lhsContracting := [1]
  rhsContracting := [0]
  lhsNonContracting := [0]
  rhsNonContracting := [1]
  lhsBatch := []
  rhsBatch := []
  wf := dot_S4096x14336_S14336x4096_S4096x4096_1_0_0_1_n_n_wf

class Facts : Prop extends Facts₀ where

variable [Facts]
-- ==== Proof.GluPieces.lean ====
/-
  What one run of the kernel body leaves behind, as the body's own arithmetic.

  The body has three control cases along the reduction axis j (the second grid coordinate).  At j = 0 it stores the zero
  block into the accumulator, reads it back and stores the step over it; at 0 < j it stores the step over what the point
  before left; at the last j it also copies the accumulator it has just stored into the output block.  In every case the
  stores cover their buffer whole and the loads read whole buffers, so what is left is the step function `k0_pay2` of
  the four input blocks and of the accumulator's previous contents (the zero block `k0_pay1` at j = 0).  These hold at
  every float instance.
-/
import proofs.«146121_j49228915147014_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a reduction (j = 0): the accumulator is left at the step over the zero block. -/
theorem acc_first (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x4096 .f32) (harg7 : arg7.IsWhole) (hc0 : cond0_0 i) (hc1 : ¬cond0_1 i)
    (x0 x1 x2 x3 : Vec F S256x4096 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x4096) hz, View.readCov_unit_zero (S := S256x4096) _ hz]
  simp only [View.readAt_eq_ld, harg2.read_unread, harg3.read_unread, harg4.read_unread, harg5.read_unread, harg7.read_unread, View.ld_unit_zero (S := S256x4096) hz]

/-- A middle point (0 < j, not the last): the accumulator is left at the step over what the point before left. -/
theorem acc_middle (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : ¬cond0_1 i)
    (x0 x1 x2 x3 xs0 : Vec F S256x4096 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S256x4096) hz]

/-- The last point of a reduction: the accumulator is left at the step over what the point before left … -/
theorem acc_last (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i)
    (x0 x1 x2 x3 xs0 : Vec F S256x4096 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S256x4096) hz]

/-- … and the output block is that same accumulator, copied. -/
theorem out_last (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i)
    (x0 x1 x2 x3 xs0 : Vec F S256x4096 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S256x4096) _ hz]
  simp only [View.readAt_eq_ld, harg2.read_unread, harg3.read_unread, harg4.read_unread, harg5.read_unread, harg7.read_unread, View.ld_unit_zero (S := S256x4096) hz]

end Cert.KernelIdeal.Pieces

end
-- ==== Proof.LibBlockSum.lean ====
/-
  A finite sum cut into equal blocks.

  An index below n·K is K·s + f for exactly one block number s below n and one offset f below K, so a sum over all the
  indices is the sum over the blocks of each block's sum.  Stated for any commutative additive monoid, and with the
  total N given beside a proof that it is n·K, so that it applies to a literal extent such as 14336 = 56·256.
-/
import Mathlib.Logic.Equiv.Fin.Basic
import Mathlib.Data.Fintype.BigOperators
import Mathlib.Algebra.BigOperators.Fin

open scoped BigOperators

namespace BlockSum

/-- Offset `f` of block `s` lies below the total. -/
theorem blk_lt {n K : ℕ} (s : Fin n) (f : Fin K) : K * s.val + f.val < n * K := by
  have hs : s.val + 1 ≤ n := s.isLt
  have hf := f.isLt
  calc K * s.val + f.val < K * s.val + K := by omega
    _ = K * (s.val + 1) := (Nat.mul_succ _ _).symm
    _ ≤ K * n := Nat.mul_le_mul_left _ hs
    _ = n * K := Nat.mul_comm _ _

/-- Block `s` ends at or below the total. -/
theorem blk_le {n K : ℕ} (s : Fin n) : K * s.val + K ≤ n * K := by
  have hs : s.val + 1 ≤ n := s.isLt
  calc K * s.val + K = K * (s.val + 1) := (Nat.mul_succ _ _).symm
    _ ≤ K * n := Nat.mul_le_mul_left _ hs
    _ = n * K := Nat.mul_comm _ _

/-- THE SPLIT: a sum over `Fin N`, `N = n·K`, is the sum over the `n` blocks of the sum over each block's `K` offsets. -/
theorem sum_blocks {β : Type*} [AddCommMonoid β] (n K N : ℕ) (hN : n * K = N) (g : Fin N → β) :
    ∑ i : Fin N, g i = ∑ s : Fin n, ∑ f : Fin K, g ⟨K * s.val + f.val, hN ▸ blk_lt s f⟩ := by
  subst hN
  rw [← finProdFinEquiv.sum_comp, Fintype.sum_prod_type]
  refine Finset.sum_congr rfl fun s _ => Finset.sum_congr rfl fun f _ => congrArg g (Fin.ext ?_)
  show f.val + K * s.val = K * s.val + f.val
  exact Nat.add_comm _ _

end BlockSum
-- ==== Proof.GluSpec.lean ====
/-
  The gated linear unit as one function of its four argument arrays, and its decomposition over row blocks.

  For X of T rows and W₁, V₁, W₂ of N rows (all with H, resp. H' columns):
    proj X W (t, f)   = Σ_h X(t,h) · W(f,h)                        (a row of X against a row of W)
    swish g            = g · (1 / (1 + e^(-g)))
    glu X W₁ V₁ W₂ (t, q) = Σ_f swish (proj X W₁ (t,f)) · proj X V₁ (t,f) · W₂(f, q).
  Cutting X into row blocks of R rows and W₁, V₁, W₂ into row blocks of K rows, the value at row R·i + p is the sum over
  the blocks s of `glu` of the i-th block of X and the s-th blocks of W₁, V₁, W₂, at row p: the rows of X enter one at a
  time, and the sum over f splits into the blocks' sums.  Only commutativity and associativity of + are used, so this
  holds on all extended reals.
-/
import Idealize.ShloMosaic.Lib.ValueIdx
import Idealize.ShloMosaic.PureOps.Ideal
import proofs.«146121_j49228915147014_1_alg».proof.Proof.LibBlockSum

noncomputable section

open scoped BigOperators

namespace Glu

open Idealize.ShloMosaic Idealize.ShloMosaic.ValueIdx

/-- A two-axis array of extended reals. -/
abbrev Arr (A B : ℕ) : Type := (⟨2, ![A, B]⟩ : Shape).Idx → EReal

variable {T N H H' : ℕ}

/-- Row `t` of `X` against row `f` of `W`. -/
def proj (X : Arr T H) (W : Arr N H) (t : Fin T) (f : Fin N) : EReal := ∑ h : Fin H, X (ix2 t h) * W (ix2 f h)

/-- `g · σ(g)`, σ the logistic function. -/
def swish (g : EReal) : EReal := g * Ideal.logistic g

/-- The gated intermediate at `(t, f)`. -/
def inter (X : Arr T H) (W₁ V₁ : Arr N H) (t : Fin T) (f : Fin N) : EReal := swish (proj X W₁ t f) * proj X V₁ t f

/-- The whole result, index by index. -/
def glu (X : Arr T H) (W₁ V₁ : Arr N H) (W₂ : Arr N H') : Arr T H' := fun j =>
  ∑ f : Fin N, inter X W₁ V₁ (j 0) f * W₂ (ix2 f (j 1))

theorem glu_apply (X : Arr T H) (W₁ V₁ : Arr N H) (W₂ : Arr N H') (t : Fin T) (q : Fin H') :
    glu X W₁ V₁ W₂ (ix2 t q) = ∑ f : Fin N, inter X W₁ V₁ t f * W₂ (ix2 f q) := rfl

/-- Rows `K·s … K·s + K - 1` of an array, as an array of `K` rows. -/
def rowsAt {A B : ℕ} (K : ℕ) (X : Arr A B) (s : ℕ) (hs : K * s + K ≤ A) : Arr K B := fun y =>
  X (ix2 ⟨K * s + (y 0).val, by have h : (y 0).val < K := (y 0).isLt; omega⟩ (y 1))

theorem rowsAt_apply {A B : ℕ} (K : ℕ) (X : Arr A B) (s : ℕ) (hs : K * s + K ≤ A) (p : Fin K) (b : Fin B) :
    rowsAt K X s hs (ix2 p b) = X (ix2 ⟨K * s + p.val, by have := p.isLt; omega⟩ b) := rfl

/-- THE DECOMPOSITION: row `R·i + p` of the result is the sum over the `n` row blocks of W₁, V₁, W₂ (of `K` rows each,
    `n·K = N`) of the blocks' own `glu` with the `i`-th row block of `X`, at row `p`. -/
theorem glu_rowBlocks (R K n : ℕ) (hN : n * K = N) (X : Arr T H) (W₁ V₁ : Arr N H) (W₂ : Arr N H')
    (i : ℕ) (hi : R * i + R ≤ T) (p : Fin R) (q : Fin H') :
    glu X W₁ V₁ W₂ (ix2 ⟨R * i + p.val, by have := p.isLt; omega⟩ q)
      = ∑ s : Fin n, glu (rowsAt R X i hi)
          (rowsAt K W₁ s.val (hN ▸ BlockSum.blk_le s))
          (rowsAt K V₁ s.val (hN ▸ BlockSum.blk_le s))
          (rowsAt K W₂ s.val (hN ▸ BlockSum.blk_le s))
          (ix2 p q) := by
  rw [glu_apply, BlockSum.sum_blocks n K N hN]
  rfl

end Glu

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.GluPayload.lean ====
/-
  The kernel body's arithmetic at an index, on extended reals.

  At a grid point the body holds a block `x` of 256 rows of the activations and blocks `w₁`, `v₁`, `w₂` of 256 rows of
  the three weight arrays.  It forms gate = x·w₁ᵀ and up = x·v₁ᵀ (each entry a row of `x` against a row of the weight
  block), multiplies gate·σ(gate)·up entry by entry, multiplies the result by `w₂`, and adds that to the accumulator.
  Format changes are the identity on extended reals, so at entry (p, q) this is the accumulator's entry plus
  `Glu.glu x w₁ v₁ w₂ (p, q)`: the gated unit of the blocks themselves.  The reset block is zero everywhere.
-/
import proofs.«146121_j49228915147014_1_alg».proof.Proof.Gen.KernelIdeal.Skeleton
import proofs.«146121_j49228915147014_1_alg».proof.Proof.GluSpec
import proofs.«146121_j49228915147014_1_alg».proof.Proof.LibDotForms
import proofs.«146121_j49228915147014_1_alg».proof.Proof.LibPlainDot
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The gate and up products contract each operand's second axis: `A·Bᵀ`. -/
theorem gateDims : DotForms.IsABt dot_S256x4096_S256x4096_S256x256_1_1_0_0_n_n := ⟨rfl, rfl, rfl, rfl, rfl, rfl⟩

/-- The down product is a plain matrix product. -/
theorem downDims : PlainDot.IsPlain dot_S256x256_S256x4096_S256x4096_1_0_0_1_n_n := ⟨rfl, rfl, rfl, rfl, rfl, rfl⟩

/-- The block the body stores at a reduction's first point is zero everywhere. -/
theorem reset_apply (j : S256x4096.Idx) : k0_pay1 (F := Ideal) j = 0 := by
  unfold k0_pay1
  simp only [shapeCast_self]
  exact Ideal.ofBits_zero_f32

/-- A row of the activation block against a row of a weight block: the product into a zero accumulator, read at an entry. -/
theorem gate_apply (x w : Vec Ideal S256x4096 .f32) (p f : Fin 256) :
    matmul (F := Ideal) dot_S256x4096_S256x4096_S256x256_1_1_0_0_n_n none (truncf .bf16 x bitsLt_bf16_f32) (truncf .bf16 w bitsLt_bf16_f32)
      (constant S256x256 .f32 0x00000000#32) (ix2 p f) = Glu.proj x w p f :=
  DotForms.abt_matmul_zero_apply gateDims none (truncf .bf16 x bitsLt_bf16_f32) (truncf .bf16 w bitsLt_bf16_f32) p f

/-- THE STEP at an entry: what the body stores is the accumulator's entry plus the blocks' gated unit there. -/
theorem step_apply (x w₁ v₁ w₂ acc : Vec Ideal S256x4096 .f32) (p : Fin 256) (q : Fin 4096) :
    k0_pay2 (F := Ideal) x w₁ v₁ w₂ acc (ix2 p q) = acc (ix2 p q) + Glu.glu x w₁ v₁ w₂ (ix2 p q) := by
  unfold k0_pay2
  simp only [shapeCast_self]
  refine congrArg (fun z => acc (ix2 p q) + z) ?_
  refine (PlainDot.matmul_zero_apply downDims none _ _ p q).trans ?_
  refine Finset.sum_congr rfl fun f _ => ?_
  refine congrArg (fun z => z * w₂ (ix2 f q)) ?_
  show (matmul (F := Ideal) dot_S256x4096_S256x4096_S256x256_1_1_0_0_n_n none (truncf .bf16 x bitsLt_bf16_f32) (truncf .bf16 w₁ bitsLt_bf16_f32)
          (constant S256x256 .f32 0x00000000#32) (ix2 p f)
        * Ideal.logistic (matmul (F := Ideal) dot_S256x4096_S256x4096_S256x256_1_1_0_0_n_n none (truncf .bf16 x bitsLt_bf16_f32) (truncf .bf16 w₁ bitsLt_bf16_f32)
          (constant S256x256 .f32 0x00000000#32) (ix2 p f)))
        * matmul (F := Ideal) dot_S256x4096_S256x4096_S256x256_1_1_0_0_n_n none (truncf .bf16 x bitsLt_bf16_f32) (truncf .bf16 v₁ bitsLt_bf16_f32)
          (constant S256x256 .f32 0x00000000#32) (ix2 p f)
      = Glu.swish (Glu.proj x w₁ p f) * Glu.proj x v₁ p f
  rw [gate_apply x w₁ p f, gate_apply x v₁ p f]
  rfl

end Cert.KernelIdeal.Payload

end
-- ==== Proof.GluBlocks.lean ====
/-
  The kernel's result array, as one function of its argument arrays.

  The grid has 16 × 56 points; point n = 56·i + j holds rows 256·i … 256·i + 255 of the activations and rows
  256·j … 256·j + 255 of each weight array.  Along j the body accumulates: zero, then at every point the previous contents
  plus the gated unit of the point's four blocks.  After the last j the accumulator, which the body copies into the
  output block, is therefore the sum over j of the blocks' gated units, and by the decomposition of `Glu.glu` over row
  blocks that sum is rows 256·i … of `Glu.glu` of the whole arrays.  Only the points with j = 55 write their block back,
  one for every block of 256 rows of the result, so the result array ends holding `Glu.glu` of the four arguments.
-/
import proofs.«146121_j49228915147014_1_alg».proof.Proof.Gen.KernelIdeal.Value
import proofs.«146121_j49228915147014_1_alg».proof.Proof.GluPieces
import proofs.«146121_j49228915147014_1_alg».proof.Proof.GluPayload

set_option maxRecDepth 16384

noncomputable section

open scoped BigOperators

open Idealize.ShloMosaic Idealize.ShloMosaic.TcCoe Idealize.SL.Sem
open Idealize.ShloMosaic.Pipeline (Dat)

namespace Glu

/-- The same rows, named by equal block numbers. -/
theorem rowsAt_congr {A B K : ℕ} (X : Arr A B) {s s' : ℕ} (h : s = s') (hs : K * s + K ≤ A) (hs' : K * s' + K ≤ A) :
    rowsAt K X s hs = rowsAt K X s' hs' := by
  subst h; rfl

end Glu

namespace Cert.KernelIdeal.Blocks

open Cert.KernelIdeal Cert.KernelIdeal.Gen Idealize.ShloMosaic.ValueIdx

variable (m : (ℓ : Loc nD τ sig) → Buf (Elt Ideal) ℓ) (ρ : Dev nD → PrngReg)

/-! ## The argument arrays and the points' blocks, at their literal types -/

abbrev xArr (c : Dev nD) : Vec Ideal S4096x4096 .f32 := V m c main_arg0
abbrev w1Arr (c : Dev nD) : Vec Ideal S14336x4096 .f32 := V m c main_arg1
abbrev v1Arr (c : Dev nD) : Vec Ideal S14336x4096 .f32 := V m c main_arg2
abbrev w2Arr (c : Dev nD) : Vec Ideal S14336x4096 .f32 := V m c main_arg3

abbrev xblk (c : Dev nD) (t : Fin cfg0.N) : Vec Ideal S256x4096 .f32 := iblk m c 0 t
abbrev w1blk (c : Dev nD) (t : Fin cfg0.N) : Vec Ideal S256x4096 .f32 := iblk m c 1 t
abbrev v1blk (c : Dev nD) (t : Fin cfg0.N) : Vec Ideal S256x4096 .f32 := iblk m c 2 t
abbrev w2blk (c : Dev nD) (t : Fin cfg0.N) : Vec Ideal S256x4096 .f32 := iblk m c 3 t

/-- The block indices at point `t = 56·i + j`: the activations and the result move with `i`, the weights with `j`. -/
theorem idx_facts : ∀ t : Fin cfg0.N,
    win0_0.index t (0 : Fin 2) = t.val / 56 ∧ win0_0.index t (1 : Fin 2) = 0
    ∧ win0_1.index t (0 : Fin 2) = t.val % 56 ∧ win0_1.index t (1 : Fin 2) = 0
    ∧ win0_2.index t (0 : Fin 2) = t.val % 56 ∧ win0_2.index t (1 : Fin 2) = 0
    ∧ win0_3.index t (0 : Fin 2) = t.val % 56 ∧ win0_3.index t (1 : Fin 2) = 0
    ∧ win0_4.index t (0 : Fin 2) = t.val / 56 ∧ win0_4.index t (1 : Fin 2) = 0 :=
  (by decide +kernel : ∀ t : Fin grid0.N, _)

/-- The activations' block at point `t`: rows `256·(t / 56) …` of the array. -/
theorem xblk_eq (c : Dev nD) (t : Fin cfg0.N) :
    xblk m c t = Glu.rowsAt 256 (xArr m c) (t.val / 56 % 16) (by omega) := by
  obtain ⟨e00, e01, e10, e11, e20, e21, e30, e31, e40, e41⟩ := idx_facts t
  have hN : t.val < 896 := lt_of_lt_of_eq t.isLt (show cfg0.N = 896 from N_0)
  funext y
  show iblk m c 0 t y = _
  unfold iblk
  rw [View.read_apply, Glu.rowsAt]
  show xArr m c (((cfg0.win 0).blk t).view.emb y) = xArr m c _
  refine congrArg (xArr m c) ?_
  funext a; apply Fin.ext
  match a with
  | ⟨0, _⟩ => show win0_0.index t (0 : Fin 2) * 256 + 1 * (y 0).val = 256 * (t.val / 56 % 16) + (y 0).val; omega
  | ⟨1, _⟩ => show win0_0.index t (1 : Fin 2) * 4096 + 1 * (y 1).val = (y 1).val; omega

/-- The gate weights' block at point `t`: rows `256·(t % 56) …`. -/
theorem w1blk_eq (c : Dev nD) (t : Fin cfg0.N) :
    w1blk m c t = Glu.rowsAt 256 (w1Arr m c) (t.val % 56) (by omega) := by
  obtain ⟨e00, e01, e10, e11, e20, e21, e30, e31, e40, e41⟩ := idx_facts t
  have hN : t.val < 896 := lt_of_lt_of_eq t.isLt (show cfg0.N = 896 from N_0)
  funext y
  show iblk m c 1 t y = _
  unfold iblk
  rw [View.read_apply, Glu.rowsAt]
  show w1Arr m c (((cfg0.win 1).blk t).view.emb y) = w1Arr m c _
  refine congrArg (w1Arr m c) ?_
  funext a; apply Fin.ext
  match a with
  | ⟨0, _⟩ => show win0_1.index t (0 : Fin 2) * 256 + 1 * (y 0).val = 256 * (t.val % 56) + (y 0).val; omega
  | ⟨1, _⟩ => show win0_1.index t (1 : Fin 2) * 4096 + 1 * (y 1).val = (y 1).val; omega

/-- The up weights' block at point `t`: rows `256·(t % 56) …`. -/
theorem v1blk_eq (c : Dev nD) (t : Fin cfg0.N) :
    v1blk m c t = Glu.rowsAt 256 (v1Arr m c) (t.val % 56) (by omega) := by
  obtain ⟨e00, e01, e10, e11, e20, e21, e30, e31, e40, e41⟩ := idx_facts t
  have hN : t.val < 896 := lt_of_lt_of_eq t.isLt (show cfg0.N = 896 from N_0)
  funext y
  show iblk m c 2 t y = _
  unfold iblk
  rw [View.read_apply, Glu.rowsAt]
  show v1Arr m c (((cfg0.win 2).blk t).view.emb y) = v1Arr m c _
  refine congrArg (v1Arr m c) ?_
  funext a; apply Fin.ext
  match a with
  | ⟨0, _⟩ => show win0_2.index t (0 : Fin 2) * 256 + 1 * (y 0).val = 256 * (t.val % 56) + (y 0).val; omega
  | ⟨1, _⟩ => show win0_2.index t (1 : Fin 2) * 4096 + 1 * (y 1).val = (y 1).val; omega

/-- The down weights' block at point `t`: rows `256·(t % 56) …`. -/
theorem w2blk_eq (c : Dev nD) (t : Fin cfg0.N) :
    w2blk m c t = Glu.rowsAt 256 (w2Arr m c) (t.val % 56) (by omega) := by
  obtain ⟨e00, e01, e10, e11, e20, e21, e30, e31, e40, e41⟩ := idx_facts t
  have hN : t.val < 896 := lt_of_lt_of_eq t.isLt (show cfg0.N = 896 from N_0)
  funext y
  show iblk m c 3 t y = _
  unfold iblk
  rw [View.read_apply, Glu.rowsAt]
  show w2Arr m c (((cfg0.win 3).blk t).view.emb y) = w2Arr m c _
  refine congrArg (w2Arr m c) ?_
  funext a; apply Fin.ext
  match a with
  | ⟨0, _⟩ => show win0_3.index t (0 : Fin 2) * 256 + 1 * (y 0).val = 256 * (t.val % 56) + (y 0).val; omega
  | ⟨1, _⟩ => show win0_3.index t (1 : Fin 2) * 4096 + 1 * (y 1).val = (y 1).val; omega

/-! ## The accumulation along the reduction axis -/

/-- What point `n` adds to the accumulator: the gated unit of the point's four blocks (a function of every natural, the
    block numbers taken in range; only the grid's points are ever used). -/
def addend (c : Dev nD) (n : ℕ) : S256x4096.Idx → EReal :=
  Glu.glu (Glu.rowsAt 256 (xArr m c) (n / 56 % 16) (by omega)) (Glu.rowsAt 256 (w1Arr m c) (n % 56) (by omega))
    (Glu.rowsAt 256 (v1Arr m c) (n % 56) (by omega)) (Glu.rowsAt 256 (w2Arr m c) (n % 56) (by omega))

/-- The step at a point of the grid, at an entry: the accumulator's entry plus the point's addend. -/
theorem step_at (c : Dev nD) (t : Fin cfg0.N) (acc : Vec Ideal S256x4096 .f32) (p : Fin 256) (q : Fin 4096) :
    k0_pay2 (F := Ideal) (xblk m c t) (w1blk m c t) (v1blk m c t) (w2blk m c t) acc (ix2 p q)
      = acc (ix2 p q) + addend m c t.val (ix2 p q) := by
  refine (Payload.step_apply (xblk m c t) (w1blk m c t) (v1blk m c t) (w2blk m c t) acc p q).trans ?_
  rw [xblk_eq m c t, w1blk_eq m c t, v1blk_eq m c t, w2blk_eq m c t]
  rfl

/-- At the first point of a reduction the accumulator is left at zero plus the point's addend. -/
theorem reset_at (c : Dev nD) (n : ℕ) (hn : n < cfg0.N) (h0 : n % 56 = 0) (junk : Vec Ideal S256x4096 .f32) (i : S256x4096.Idx) :
    Value.scAt0_0 m c n hn junk i = 0 + addend m c n i := by
  have h1 : ¬n % 56 = 55 := by omega
  obtain ⟨p, q, rfl⟩ : ∃ (p : Fin 256) (q : Fin 4096), i = ix2 p q := ⟨i 0, i 1, eq_ix2 i⟩
  unfold Value.scAt0_0
  rw [dif_pos h0, dif_neg h1]
  refine (congrFun (Pieces.acc_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N))) (ix2 p q)).trans ?_
  refine (step_at m c (⟨n, hn⟩ : Fin cfg0.N) (k0_pay1 (F := Ideal)) p q).trans ?_
  rw [Payload.reset_apply]

/-- At every other point the accumulator is left at what it held plus the point's addend. -/
theorem accum_at (c : Dev nD) (n : ℕ) (hn : n < cfg0.N) (h0 : ¬n % 56 = 0) (acc : Vec Ideal S256x4096 .f32) (i : S256x4096.Idx) :
    Value.scAt0_0 m c n hn acc i = acc i + addend m c n i := by
  obtain ⟨p, q, rfl⟩ : ∃ (p : Fin 256) (q : Fin 4096), i = ix2 p q := ⟨i 0, i 1, eq_ix2 i⟩
  unfold Value.scAt0_0
  rw [dif_neg h0]
  by_cases h1 : n % 56 = 55
  · rw [dif_pos h1]
    refine (congrFun (Pieces.acc_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) acc) (ix2 p q)).trans ?_
    exact step_at m c (⟨n, hn⟩ : Fin cfg0.N) acc p q
  · rw [dif_neg h1]
    refine (congrFun (Pieces.acc_middle (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) acc) (ix2 p q)).trans ?_
    exact step_at m c (⟨n, hn⟩ : Fin cfg0.N) acc p q

/-- THE ACCUMULATOR after the last point of a reduction: zero plus the addends of the reduction's 56 points. -/
theorem acc_at_last (c : Dev nD) (t : Fin cfg0.N) (h55 : t.val % 56 = 55) (i : S256x4096.Idx) :
    (outsAt0 m c t.val t.isLt).2 i = 0 + ∑ s ∈ Finset.range 56, addend m c (56 * (t.val / 56) + s) i := by
  have key : ∀ (j : ℕ), j ≤ 55 → ∀ (h : 56 * (t.val / 56) + j < cfg0.N),
      Pipeline.accAt (fun n h => Value.scAt0_0 m c n h (VS0_0.read (Elt Ideal) VS0_0.junk)) (Value.scAt0_0 m c) (56 * (t.val / 56)) j h i
        = (fun _ => (0 : EReal)) i + ∑ s ∈ Finset.range (j + 1), addend m c (56 * (t.val / 56) + s) i :=
    fun j hj h => Pipeline.accAt_add_apply (fun n h => Value.scAt0_0 m c n h (VS0_0.read (Elt Ideal) VS0_0.junk)) (Value.scAt0_0 m c)
      (fun _ => (0 : EReal)) (addend m c) (56 * (t.val / 56)) 55
      (fun h i => reset_at m c _ h (by omega) _ i)
      (fun n h acc i hlo hhi => accum_at m c n h (by omega) acc i) j hj h i
  rw [Value.soutsAt0_0_eq m c t]
  refine (key (t.val % 56) (by omega) _).trans ?_
  rw [h55]

/-- At the last point of a reduction the output block is the accumulator the body has just stored. -/
theorem out_eq_acc (c : Dev nD) (t : Fin cfg0.N) (h0 : ¬t.val % 56 = 0) (h55 : t.val % 56 = 55) :
    (outsAt0 m c t.val t.isLt).1 = (outsAt0 m c t.val t.isLt).2 := by
  rw [outsAt0_C m c t h0 h55]
  dsimp only
  rw [Pieces.out_last, Pieces.acc_last]

/-! ## The result array -/

/-- The gated linear unit of the four argument arrays. -/
abbrev result (c : Dev nD) : Vec Ideal S4096x4096 .f32 := Glu.glu (xArr m c) (w1Arr m c) (v1Arr m c) (w2Arr m c)

/-- The 56 addends of row block `i` sum to rows `256·i …` of the result. -/
theorem sum_addends (c : Dev nD) (i : ℕ) (hi : i < 16) (p : Fin 256) (q : Fin 4096) :
    ∑ s ∈ Finset.range 56, addend m c (56 * i + s) (ix2 p q)
      = result m c (ix2 ⟨256 * i + p.val, by have := p.isLt; omega⟩ q) := by
  refine Eq.trans ?_ (Glu.glu_rowBlocks 256 256 56 (by norm_num) (xArr m c) (w1Arr m c) (v1Arr m c) (w2Arr m c) i (by omega) p q).symm
  rw [Finset.sum_range]
  refine Finset.sum_congr rfl fun s _ => ?_
  have hs := s.isLt
  unfold addend
  rw [Glu.rowsAt_congr (xArr m c) (show (56 * i + s.val) / 56 % 16 = i by omega) _ (by omega),
    Glu.rowsAt_congr (w1Arr m c) (show (56 * i + s.val) % 56 = s.val by omega) _ (by omega),
    Glu.rowsAt_congr (v1Arr m c) (show (56 * i + s.val) % 56 = s.val by omega) _ (by omega),
    Glu.rowsAt_congr (w2Arr m c) (show (56 * i + s.val) % 56 = s.val by omega) _ (by omega)]

/-- WHAT A WRITE-BACK WRITES: at a point that writes its block back (the last of a reduction), the block of the result. -/
theorem flushed_eq (c : Dev nD) (t : Fin cfg0.N) (hf : (cfg0.win 4).flush t = true) :
    (dats m 0 c).flushed 4 t = ((cfg0.win 4).blk t).view.read (Elt Ideal) (result m c) := by
  have h55 : t.val % 56 = 55 := (flush0_4 t).mp hf
  have h0 : ¬t.val % 56 = 0 := by omega
  have hN : t.val < 896 := lt_of_lt_of_eq t.isLt (show cfg0.N = 896 from N_0)
  obtain ⟨e00, e01, e10, e11, e20, e21, e30, e31, e40, e41⟩ := idx_facts t
  rw [Value.flushed4, out_eq_acc m c t h0 h55]
  funext y
  have hy0 : (y 0).val < 256 := (y 0).isLt
  have hy1 : (y 1).val < 4096 := (y 1).isLt
  have hxy : (cfg0.win 4).xinj (grid0.coords t) y = ix2 (⟨(y 0).val, hy0⟩ : Fin 256) (⟨(y 1).val, hy1⟩ : Fin 4096) :=
    funext fun a => Fin.ext (by match a with | ⟨0, _⟩ => rfl | ⟨1, _⟩ => rfl)
  show (outsAt0 m c t.val t.isLt).2 ((cfg0.win 4).xinj (grid0.coords t) y) = result m c (((cfg0.win 4).blk t).view.emb y)
  rw [hxy, acc_at_last m c t h55, zero_add, sum_addends m c (t.val / 56) (by omega)]
  refine congrArg (result m c) ?_
  funext a; apply Fin.ext
  match a with
  | ⟨0, _⟩ => show 256 * (t.val / 56) + (y 0).val = win0_4.index t (0 : Fin 2) * 256 + 1 * (y 0).val; omega
  | ⟨1, _⟩ => show (y 1).val = win0_4.index t (1 : Fin 2) * 4096 + 1 * (y 1).val; omega

/-- An index of the result is in point `t`'s block iff each coordinate is in the block's range on its axis. -/
theorem mem_blk (t : Fin cfg0.N) (i : S4096x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v0).slice (win0_4.rect t)).set ↔ _
  rw [View.set_slice_whole, Rect.mem_set_unit]
  exact Iff.rfl

/-- Every index of the result lies in the block of the last point of its row block's reduction. -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 896 := N_0
  let t : Fin cfg0.N := ⟨56 * ((i 0).val / 256) + 55, by rw [hN]; omega⟩
  have htv : t.val = 56 * ((i 0).val / 256) + 55 := rfl
  obtain ⟨e00, e01, e10, e11, e20, e21, e30, e31, e40, e41⟩ := idx_facts t
  refine ⟨t, (flush0_4 t).mpr (by omega), ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- THE RESULT ARRAY after the run is the gated linear unit of the argument arrays. -/
theorem final (c : Dev nD) : (dats m 0 c).arrAt 4 cfg0.N = result m c :=
  (dats m 0 c).arrAt_eq_of_cover 4 (result m c) (flushed_eq m c) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.GluRef.lean ====
/-
  The reference computes the gated linear unit.

  The reference forms gate = X·W₁ᵀ and up = X·V₁ᵀ as two contractions over the hidden axis, applies
  g ↦ g · (1 / (1 + e^(-g))) to gate entry by entry, multiplies by up, and contracts the product with W₂ over the
  feed-forward axis.  Its quotient of one by 1 + e^(-g) is the logistic function as the extended reals define it, and the
  constant it divides is the real number one, so the result is `Glu.glu X W₁ V₁ W₂`, index by index.
-/
import proofs.«146121_j49228915147014_1_alg».proof.Proof.Gen.ReferenceIdeal.Read
import proofs.«146121_j49228915147014_1_alg».proof.Proof.GluSpec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-- The reference's spelling of `g · σ(g)`: one over one plus `e^(-g)`, the ones as the f32 pattern of 1.0. -/
theorem silu_eq (g : EReal) :
    g * Ideal.div (Ideal.ofBits .f32 0x3F800000#32) (Ideal.ofBits .f32 0x3F800000#32 + Ideal.exp (-g)) = Glu.swish g := by
  rw [Ideal.ofBits_one_f32]; rfl

/-- A contraction over the hidden axis at an entry is a row against a row. -/
theorem gate_eq (x0 : (⟨S4096x4096, .f32⟩ : BufTy).Contents (Elt Ideal)) (x1 : (⟨S14336x4096, .f32⟩ : BufTy).Contents (Elt Ideal))
    (t : Fin 4096) (k : Fin 14336) : val_main_v0 (F := Ideal) x0 x1 (ix2 t k) = Glu.proj x0 x1 t k := by
  rw [val_main_v0_apply]
  refine Finset.sum_congr rfl fun h _ => ?_
  have el : lidx_main_v0 (ix2 t k) h = ix2 t h := funext fun a => Fin.ext (by match a with | ⟨0, _⟩ => rfl | ⟨1, _⟩ => rfl)
  have er : ridx_main_v0 (ix2 t k) h = ix2 k h := funext fun a => Fin.ext (by match a with | ⟨0, _⟩ => rfl | ⟨1, _⟩ => rfl)
  rw [el, er]

theorem up_eq (x0 : (⟨S4096x4096, .f32⟩ : BufTy).Contents (Elt Ideal)) (x2 : (⟨S14336x4096, .f32⟩ : BufTy).Contents (Elt Ideal))
    (t : Fin 4096) (k : Fin 14336) : val_main_v1 (F := Ideal) x0 x2 (ix2 t k) = Glu.proj x0 x2 t k := by
  rw [val_main_v1_apply]
  refine Finset.sum_congr rfl fun h _ => ?_
  have el : lidx_main_v1 (ix2 t k) h = ix2 t h := funext fun a => Fin.ext (by match a with | ⟨0, _⟩ => rfl | ⟨1, _⟩ => rfl)
  have er : ridx_main_v1 (ix2 t k) h = ix2 k h := funext fun a => Fin.ext (by match a with | ⟨0, _⟩ => rfl | ⟨1, _⟩ => rfl)
  rw [el, er]

/-- The gated intermediate, entry by entry. -/
theorem inter_eq (x0 : (⟨S4096x4096, .f32⟩ : BufTy).Contents (Elt Ideal)) (x1 x2 : (⟨S14336x4096, .f32⟩ : BufTy).Contents (Elt Ideal))
    (t : Fin 4096) (k : Fin 14336) : val_main_v3 (F := Ideal) x0 x1 x2 (ix2 t k) = Glu.inter x0 x1 x2 t k := by
  rw [val_main_v3_apply, val_main_v2_apply, val_main_call0_v5_apply, val_main_call0_v4_apply, val_main_call0_cst_0_apply,
    val_main_call0_v3_apply, val_main_call0_v2_apply, val_main_call0_cst_apply, val_main_call0_v1_apply, val_main_call0_v0_apply,
    gate_eq, up_eq]
  exact congrArg (fun z => z * Glu.proj x0 x2 t k) (silu_eq (Glu.proj x0 x1 t k))

/-- THE REFERENCE'S RESULT is the gated linear unit of its four arguments. -/
theorem reference_eq (x0 : (⟨S4096x4096, .f32⟩ : BufTy).Contents (Elt Ideal)) (x1 x2 x3 : (⟨S14336x4096, .f32⟩ : BufTy).Contents (Elt Ideal)) :
    val_main_v4 (F := Ideal) x0 x1 x2 x3 = Glu.glu x0 x1 x2 x3 := by
  funext i
  obtain ⟨t, q, rfl⟩ : ∃ (t : Fin 4096) (q : Fin 4096), i = ix2 t q := ⟨i 0, i 1, eq_ix2 i⟩
  rw [val_main_v4_apply, Glu.glu_apply]
  refine Finset.sum_congr rfl fun k _ => ?_
  have el : lidx_main_v4 (ix2 t q) k = ix2 t k := funext fun a => Fin.ext (by match a with | ⟨0, _⟩ => rfl | ⟨1, _⟩ => rfl)
  have er : ridx_main_v4 (ix2 t q) k = ix2 k q := funext fun a => Fin.ext (by match a with | ⟨0, _⟩ => rfl | ⟨1, _⟩ => rfl)
  rw [el, er, inter_eq]

end Cert.ReferenceIdeal.RefValue

end
-- ==== Proof.lean ====
/-
  A fused gated linear unit against its textbook form, over the extended reals.

  Both programs compute, for activations X [4096, 4096] and weights W₁, V₁, W₂ [14336, 4096],
      out(t, q) = Σ_f  g(t,f) · σ(g(t,f)) · u(t,f) · W₂(f, q),   g = X·W₁ᵀ,  u = X·V₁ᵀ,  σ the logistic function.
  The reference does it with three whole contractions.  The kernel walks a 16 × 56 grid: for each block of 256 rows of X
  it runs over the 56 blocks of 256 rows of the weights, adding each block's contribution to an accumulator that starts
  at zero, and writes the accumulator out after the last one.  On extended reals a change of float format is the
  identity, the logistic function is 1 / (1 + e^(-g)) in both spellings, and the two results differ only in how one sum
  over f is grouped; + is commutative and associative on all extended reals, so the inputs' finiteness is not used.

  The modules: `GluSpec` (the function and its decomposition over row blocks), `GluPayload` (the body's arithmetic at an
  entry), `GluPieces` (what one run of the body leaves), `GluBlocks` (the accumulation, the write-backs and the kernel's
  run), `GluRef` (the reference is the same function).  The frames of the two kernels are the generated ones; the
  reference's frame is its generated run with the result dropped; nothing was rewritten by the ideal pass.
-/
import proofs.«146121_j49228915147014_1_alg».proof.Defs
import proofs.«146121_j49228915147014_1_alg».proof.Proof.Gen.Kernel
import proofs.«146121_j49228915147014_1_alg».proof.Proof.Gen.Kernel.Skeleton
import proofs.«146121_j49228915147014_1_alg».proof.Proof.Gen.Kernel.Launch
import proofs.«146121_j49228915147014_1_alg».proof.Proof.Gen.Kernel.Points
import proofs.«146121_j49228915147014_1_alg».proof.Proof.Gen.Kernel.Frame
import proofs.«146121_j49228915147014_1_alg».proof.Proof.Gen.KernelIdeal
import proofs.«146121_j49228915147014_1_alg».proof.Proof.Gen.KernelIdeal.Skeleton
import proofs.«146121_j49228915147014_1_alg».proof.Proof.Gen.KernelIdeal.Launch
import proofs.«146121_j49228915147014_1_alg».proof.Proof.Gen.KernelIdeal.Points
import proofs.«146121_j49228915147014_1_alg».proof.Proof.Gen.KernelIdeal.Frame
import proofs.«146121_j49228915147014_1_alg».proof.Proof.Gen.ReferenceIdeal
import proofs.«146121_j49228915147014_1_alg».proof.Proof.Gen.Pre_finite_inputs
import proofs.«146121_j49228915147014_1_alg».proof.Proof.Gen.KernelIdeal.Value
import proofs.«146121_j49228915147014_1_alg».proof.Proof.Gen.ReferenceIdeal.Run
import proofs.«146121_j49228915147014_1_alg».proof.Proof.Gen.ReferenceIdeal.Read
import proofs.«146121_j49228915147014_1_alg».proof.Proof.GluBlocks
import proofs.«146121_j49228915147014_1_alg».proof.Proof.GluRef
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the gated linear unit of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
